-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S16x64x1024 : Shape := ⟨3, ![16, 64, 1024]⟩
abbrev S1024x1024 : Shape := ⟨2, ![1024, 1024]⟩
abbrev S1024 : Shape := ⟨1, ![1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S16x64x1024 : S_.BroadcastsInDim S16x64x1024 (![] : Fin 0 → Fin S16x64x1024.rank)
  reducesTo_S16x64x1024_S_d0_1_2 : S16x64x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S32x2048x1024 .f32) (main_arg1 : FVec F S16x64x1024 .f32) (main_arg2 : FVec F S1024x1024 .f32) (main_arg3 : FVec F S1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S16x64x1024 .f32 := Host.absf main_arg1
  let main_cst_0 : FVec F S_ .f32 := constant S_ .f32 0x7F800000#32
  let main_v5 : FVec F S16x64x1024 .f32 := broadcastInDim S16x64x1024 ![] bcast_S_S16x64x1024 main_cst_0
  let main_v6 : IVec S16x64x1024 1 := cmpf .olt main_v4 main_v5
  let main_c_1 : IVec S_ 1 := constantI S_ 1 1#1
  let main_v7 : IVec S_ 1 := (fun x v => Host.reduce IntOp.andi x v reducesTo_S16x64x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S32x2048x1024 : Shape := ⟨3, ![32, 2048, 1024]⟩
abbrev S16x64x1024 : Shape := ⟨3, ![16, 64, 1024]⟩
abbrev S1024x1024 : Shape := ⟨2, ![1024, 1024]⟩
abbrev S1024 : Shape := ⟨1, ![1024]⟩
abbrev S32x1024 : Shape := ⟨2, ![32, 1024]⟩
abbrev S16x128x1024 : Shape := ⟨3, ![16, 128, 1024]⟩
abbrev S16x1024 : Shape := ⟨2, ![16, 1024]⟩
abbrev S2048x1024 : Shape := ⟨2, ![2048, 1024]⟩
abbrev S1x1024 : Shape := ⟨2, ![1, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S16x64x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S32x1024, .f32⟩
  | .local _ .vmem, ⟨0, _⟩ => ⟨S16x128x1024, .f32⟩
  | .local _ .vmem, ⟨1, _⟩ => ⟨S16x128x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_10 : BitVec 32 := 0#32
  let v18 : BitVec 1 := Scalar.cmpi .ne v17 c0_i32_10
  v18

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x64x1024_S1024x1024 : S16x64x1024.ShapeCasts S1024x1024
  transposes_S1024x1024_S1024x1024_1_0 : S1024x1024.Transposes [1, 0] S1024x1024
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S16x128x1024_S16x128x1024_0_0_0 : ∀ a, (![0, 0, 0] : Fin 3 → Nat) a + S16x128x1024.size a ≤ S16x128x1024.size a
  h_S16x128x1024 : 0 < S16x128x1024.numel
  shapeCasts_S16x128x1024_S2048x1024 : S16x128x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2048x1024_S16x128x1024 : S2048x1024.ShapeCasts S16x128x1024
  reduces_S16x128x1024_S16x1024 : S16x128x1024.Reduces [1] S16x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S16x1024 : S1x1024.Broadcasts S16x1024
  dot_S2048x1024_S1024x1024_S2048x1024_1_0_0_1_n_n_wf : DotDims.WF S2048x1024 S1024x1024 S2048x1024 [1] [0] [0] [1] [] []
  dot_S16x1024_S1024x1024_S16x1024_1_0_0_1_n_n_wf : DotDims.WF S16x1024 S1024x1024 S16x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x1024.size a ≤ S32x2048x1024.size a
  hwx0_0 : ∀ i : grid0.Coords, EltTy.bits .f32 = 32 ∨ (Rect.block (s := S32x2048x1024) S16x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S32x1024.size a
  hwx0_4 : ∀ i : grid0.Coords, EltTy.bits .f32 = 32 ∨ (Rect.block (s := S32x1024) S16x1024.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf

abbrev win0_0 : Pipeline.Window sig grid0 :=
  Pipeline.Window.ofSpec (Memref.whole main_arg0) S16x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S16x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x2048x1024 : Shape := ⟨3, ![32, 2048, 1024]⟩
abbrev S16x64x1024 : Shape := ⟨3, ![16, 64, 1024]⟩
abbrev S1024x1024 : Shape := ⟨2, ![1024, 1024]⟩
abbrev S1024 : Shape := ⟨1, ![1024]⟩
abbrev S32x2048x16x64 : Shape := ⟨4, ![32, 2048, 16, 64]⟩
abbrev S_ : Shape := ⟨0, ![]⟩
abbrev S32x1024 : Shape := ⟨2, ![32, 1024]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S16x64x1024, .f32⟩
  | .hbm, ⟨2, _⟩ => ⟨S1024x1024, .f32⟩
  | .hbm, ⟨3, _⟩ => ⟨S1024, .f32⟩
  | .hbm, ⟨4, _⟩ => ⟨S32x2048x16x64, .f32⟩
  | .hbm, ⟨5, _⟩ => ⟨S32x2048x1024, .f32⟩
  | .hbm, ⟨6, _⟩ => ⟨S_, .f32⟩
  | .hbm, ⟨7, _⟩ => ⟨S32x1024, .f32⟩
  | .hbm, ⟨8, _⟩ => ⟨S1024x1024, .f32⟩
  | .hbm, ⟨9, _⟩ => ⟨S32x1024, .f32⟩
  | .hbm, ⟨10, _⟩ => ⟨S1x1024, .f32⟩
  | .hbm, ⟨11, _⟩ => ⟨S32x1024, .f32⟩
  | .hbm, ⟨12, _⟩ => ⟨S32x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  shapeCasts_S32x2048x16x64_S32x2048x1024 : S32x2048x16x64.ShapeCasts S32x2048x1024
  reducesTo_S32x2048x1024_S32x1024_d1 : S32x2048x1024.ReducesTo [1] S32x1024
  h_S_ : 0 < S_.numel
  transposes_S1024x1024_S1024x1024_1_0 : S1024x1024.Transposes [1, 0] S1024x1024
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  dot_S32x2048x1024_S16x64x1024_S32x2048x16x64_2_2_01_01_n_n_wf : DotDims.WF S32x2048x1024 S16x64x1024 S32x2048x16x64 [2] [2] [0, 1] [0, 1] [] []
  dot_S32x1024_S1024x1024_S32x1024_1_0_0_1_n_n_wf : DotDims.WF S32x1024 S1024x1024 S32x1024 [1] [0] [0] [1] [] []

variable [Facts₀]

def dot_S32x2048x1024_S16x64x1024_S32x2048x16x64_2_2_01_01_n_n : DotDims S32x2048x1024 S16x64x1024 S32x2048x16x64 where
  lhsContracting := [2]
  rhsContracting := [2]
  lhsNonContracting := [0, 1]
  rhsNonContracting := [0, 1]
  lhsBatch := []
  rhsBatch := []
  wf := dot_S32x2048x1024_S16x64x1024_S32x2048x16x64_2_2_01_01_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

class Facts : Prop extends Facts₀ where

variable [Facts]
-- ==== Proof.Spec.lean ====
/-
  The mathematics of the pooled multi-head projection, stated once over literal shapes and importing no program.

  For tokens `x : [32, 2048, 1024]`, head weights `wh : [16, 64, 1024]`, output weights `wp : [1024, 1024]` and a
  bias `b : [1024]`, the result at (B, o) is

      (∑ c, (∑ T, ∑ d, x[B, T, d] · wh[c / 64, c % 64, d]) · wp[o, c]) + b[o]

  over the extended reals: each token is projected onto the 1024 head channels (channel `c` is lane `c % 64` of head
  `c / 64`), the projections are summed over the 2048 tokens of a batch row, and the pooled row goes through the
  output projection. A program that walks the tokens sixteen tiles of 128 at a time, adding each tile's sum onto a
  running total that starts at zero, computes the same pooled row: addition of extended reals is commutative and
  associative, so the 2048-term sum regroups as sixteen 128-term sums (`pooledUpTo_zero`, `pooledUpTo_succ`,
  `pooledUpTo_last`). No finiteness of the inputs is used anywhere.
-/
import Idealize.ShloMosaic.PureOps.Ideal
import Idealize.ShloMosaic.Lib.ValueIdx

noncomputable section

namespace Cert.PoolProj

open Idealize.ShloMosaic Idealize.ShloMosaic.ValueIdx

/-- The token array's shape, the head weights', the square output weights', the bias's and the result's. -/
abbrev Tok : Shape := ⟨3, ![32, 2048, 1024]⟩
abbrev Heads : Shape := ⟨3, ![16, 64, 1024]⟩
abbrev Sq : Shape := ⟨2, ![1024, 1024]⟩
abbrev Bias : Shape := ⟨1, ![1024]⟩
abbrev Out : Shape := ⟨2, ![32, 1024]⟩

/-- Head channel `c` of the 1024 concatenated channels is lane `c % 64` of head `c / 64`. -/
def headOf (c : Fin 1024) : Fin 16 := ⟨c.val / 64, by have := c.isLt; omega⟩
def laneOf (c : Fin 1024) : Fin 64 := ⟨c.val % 64, Nat.mod_lt _ (by decide)⟩

/-- One token's projection onto head channel `c`: its inner product with that channel's weight row. -/
def proj (x : Tok.Idx → EReal) (wh : Heads.Idx → EReal) (B : Fin 32) (T : Fin 2048) (c : Fin 1024) : EReal :=
  ∑ d : Fin 1024, x (ix3 B T d) * wh (ix3 (headOf c) (laneOf c) d)

/-- The projections of a batch row's 2048 tokens, summed. -/
def pooled (x : Tok.Idx → EReal) (wh : Heads.Idx → EReal) (B : Fin 32) (c : Fin 1024) : EReal :=
  ∑ T : Fin 2048, proj x wh B T c

/-- The result: the pooled row through the output projection, plus the bias. -/
def result (x : Tok.Idx → EReal) (wh : Heads.Idx → EReal) (wp : Sq.Idx → EReal) (b : Bias.Idx → EReal) : Out.Idx → EReal :=
  fun i => (∑ c : Fin 1024, pooled x wh (i 0) c * wp (ix2 (i 1) c)) + b (ix1 (i 1))

/-! ## Sixteen tiles of 128 tokens -/

/-- Token `t` of tile `k`. -/
def tok (k : Fin 16) (t : Fin 128) : Fin 2048 := ⟨128 * k.val + t.val, by have := k.isLt; have := t.isLt; omega⟩

/-- One tile's sum of a per-token quantity. -/
def tileSum (f : Fin 2048 → EReal) (k : Fin 16) : EReal := ∑ t : Fin 128, f (tok k t)

/-- The running total after tiles `0 … j`. -/
def pooledUpTo (f : Fin 2048 → EReal) (j : ℕ) : EReal := ∑ k : Fin 16, if k.val ≤ j then tileSum f k else 0

/-- After the first tile the running total is zero plus that tile's sum. -/
theorem pooledUpTo_zero (f : Fin 2048 → EReal) : pooledUpTo f 0 = 0 + tileSum f 0 := by
  unfold pooledUpTo
  rw [zero_add, Finset.sum_eq_single (0 : Fin 16)]
  · simp
  · intro k _ hk
    have : ¬ k.val ≤ 0 := fun h => hk (Fin.ext (Nat.le_zero.mp h))
    rw [if_neg this]
  · intro h; exact absurd (Finset.mem_univ _) h

/-- Each further tile adds its sum onto the running total. -/
theorem pooledUpTo_succ (f : Fin 2048 → EReal) (j : ℕ) (hj : j + 1 < 16) :
    pooledUpTo f (j + 1) = pooledUpTo f j + tileSum f ⟨j + 1, hj⟩ := by
  unfold pooledUpTo
  have hsplit : ∀ k : Fin 16, (if k.val ≤ j + 1 then tileSum f k else 0)
      = (if k.val ≤ j then tileSum f k else 0) + (if k = ⟨j + 1, hj⟩ then tileSum f k else 0) := by
    intro k
    by_cases h1 : k.val ≤ j
    · have h2 : k.val ≤ j + 1 := Nat.le_succ_of_le h1
      have h3 : k ≠ ⟨j + 1, hj⟩ := fun e => by have := congrArg Fin.val e; simp at this; omega
      rw [if_pos h1, if_pos h2, if_neg h3, add_zero]
    · by_cases h2 : k = ⟨j + 1, hj⟩
      · have h3 : k.val ≤ j + 1 := by rw [h2]
        rw [if_neg h1, if_pos h3, if_pos h2, zero_add]
      · have h3 : ¬ k.val ≤ j + 1 := fun h => h2 (Fin.ext (by simp; omega))
        rw [if_neg h1, if_neg h3, if_neg h2, add_zero]
  rw [Finset.sum_congr rfl (fun k _ => hsplit k), Finset.sum_add_distrib, Finset.sum_ite_eq' Finset.univ (⟨j + 1, hj⟩ : Fin 16)]
  simp

/-- After the sixteenth tile the running total is the sum over all 2048 tokens. -/
theorem pooledUpTo_last (f : Fin 2048 → EReal) : pooledUpTo f 15 = ∑ T : Fin 2048, f T := by
  unfold pooledUpTo tileSum
  have hall : ∀ k : Fin 16, (if k.val ≤ 15 then ∑ t : Fin 128, f (tok k t) else 0) = ∑ t : Fin 128, f (tok k t) := by
    intro k; rw [if_pos (by have := k.isLt; omega)]
  rw [Finset.sum_congr rfl (fun k _ => hall k), ← Finset.sum_product', Finset.univ_product_univ]
  refine Eq.trans ?_ (Equiv.sum_comp (finProdFinEquiv (m := 16) (n := 128)) (f : Fin (16 * 128) → EReal))
  refine Finset.sum_congr rfl fun p _ => ?_
  exact congrArg f (Fin.ext (by
    rw [finProdFinEquiv_apply_val]
    show 128 * p.1.val + p.2.val = _
    omega))

end Cert.PoolProj

end
-- ==== Proof.RefRead.lean ====
/-
  The reference program's result, read index by index at the ideal instance, is the pooled multi-head projection
  `Cert.PoolProj.result`.

  The program's stages, outermost first: the result at (B, o) is the output projection's element plus the bias
  broadcast along the batch axis; the output projection's element is the inner product over the 1024 head channels
  `c` of the pooled row with the transposed output weights, that is with `wp[o, c]`; the pooled row at (B, c) is the
  zero literal plus the sum over the 2048 tokens `T` of the projected token at (B, T, c); the projected token is the
  rank-4 product [32, 2048, 16, 64] read through a reshape, which sends (B, T, c) to (B, T, c / 64, c % 64) because
  the row-major position ((B · 2048 + T) · 1024 + c) splits that way when c < 1024; and the rank-4 product at
  (B, T, h, l) is the inner product over `d` of `x[B, T, d]` with `wh[h, l, d]`.
-/
import proofs.«132895_j13082470383831_1_alg».proof.Proof.Gen.ReferenceIdeal.Read
import proofs.«132895_j13082470383831_1_alg».proof.Proof.Gen.ReferenceIdeal.Run
import proofs.«132895_j13082470383831_1_alg».proof.Proof.Spec
import Idealize.ShloMosaic.PureOps.Ideal.Laws
import Idealize.ShloMosaic.Lib.ValueIdx

noncomputable section

namespace Cert.PoolProj.Ref

open Idealize.ShloMosaic Idealize.ShloMosaic.ValueIdx Cert.ReferenceIdeal Cert.ReferenceIdeal.Read

/-- The token array's index that the first product reads on its left at the reshaped position (B, T, c) and
    contraction coordinate `d` is (B, T, d): the reshape leaves the two leading coordinates alone. -/
theorem left_index (B : Fin 32) (T : Fin 2048) (c : Fin 1024) (d : Fin 1024) :
    lidx_main_v0 (idx_main_v1 (ix3 B T c)) d = ix3 B T d := by
  have hB := B.isLt
  have hT := T.isLt
  have hc := c.isLt
  funext a
  match a with
  | ⟨0, _⟩ =>
    refine Fin.ext ?_
    show ((B.val * 2048 + T.val) * 1024 + c.val) / 2097152 = B.val
    omega
  | ⟨1, _⟩ =>
    refine Fin.ext ?_
    show ((B.val * 2048 + T.val) * 1024 + c.val) / 1024 % 2048 = T.val
    omega
  | ⟨2, _⟩ => rfl

/-- The head weights' index read on the right there is (c / 64, c % 64, d): channel `c` is lane `c % 64` of head
    `c / 64`. -/
theorem right_index (B : Fin 32) (T : Fin 2048) (c : Fin 1024) (d : Fin 1024) :
    ridx_main_v0 (idx_main_v1 (ix3 B T c)) d = ix3 (headOf c) (laneOf c) d := by
  have hB := B.isLt
  have hT := T.isLt
  have hc := c.isLt
  funext a
  match a with
  | ⟨0, _⟩ =>
    refine Fin.ext ?_
    show ((B.val * 2048 + T.val) * 1024 + c.val) / 64 % 16 = c.val / 64
    omega
  | ⟨1, _⟩ =>
    refine Fin.ext ?_
    show ((B.val * 2048 + T.val) * 1024 + c.val) % 64 = c.val % 64
    omega
  | ⟨2, _⟩ => rfl

/-- The reshaped product at (B, T, c) is token (B, T)'s projection onto head channel `c`. -/
theorem projected (x : (⟨S32x2048x1024, .f32⟩ : BufTy).Contents (Elt Ideal)) (wh : (⟨S16x64x1024, .f32⟩ : BufTy).Contents (Elt Ideal))
    (B : Fin 32) (T : Fin 2048) (c : Fin 1024) :
    val_main_v1 (F := Ideal) x wh (ix3 B T c) = proj x wh B T c := by
  rw [val_main_v1_apply, val_main_v0_apply]
  unfold proj
  refine Finset.sum_congr rfl fun d _ => ?_
  rw [left_index, right_index]

/-- The token sum at (B, c) is the pooled row: the zero literal it starts from is the extended reals' zero. -/
theorem pooled_row (x : (⟨S32x2048x1024, .f32⟩ : BufTy).Contents (Elt Ideal)) (wh : (⟨S16x64x1024, .f32⟩ : BufTy).Contents (Elt Ideal))
    (B : Fin 32) (c : Fin 1024) :
    val_main_v2 (F := Ideal) x wh (ix2 B c) = pooled x wh B c := by
  rw [val_main_v2_apply, val_main_cst_apply]
  have hz : (FloatOps.ofBits (F := Ideal) .f32 0x00000000#32) = (0 : EReal) := Ideal.ofBits_zero_f32
  rw [hz, zero_add]
  unfold pooled
  refine Finset.sum_congr rfl fun T _ => ?_
  have hi : idx_main_v2 (ix2 B c) T = ix3 B T c := by
    funext a
    match a with
    | ⟨0, _⟩ => rfl
    | ⟨1, _⟩ => rfl
    | ⟨2, _⟩ => rfl
  rw [hi, projected]

/-- The transposed output weights at (c, o) are `wp[o, c]`. -/
theorem transposed (wp : (⟨S1024x1024, .f32⟩ : BufTy).Contents (Elt Ideal)) (o : Fin 1024) (c : Fin 1024) :
    val_main_v3 (F := Ideal) wp (ix2 c o) = wp (ix2 o c) := by
  rw [val_main_v3_apply]
  refine congrArg wp ?_
  funext a
  match a with
  | ⟨0, _⟩ => rfl
  | ⟨1, _⟩ => rfl

/-- The bias broadcast along the batch axis at (B, o) is `b[o]`. -/
theorem bias_row (b : (⟨S1024, .f32⟩ : BufTy).Contents (Elt Ideal)) (B : Fin 32) (o : Fin 1024) :
    val_main_v6 (F := Ideal) b (ix2 B o) = b (ix1 o) := by
  rw [val_main_v6_apply, val_main_v5_apply]
  refine congrArg b ?_
  funext a
  match a with
  | ⟨0, _⟩ => rfl

/-- The output projection at (B, o) is the pooled row's inner product with row `o` of the output weights. -/
theorem projected_out (x : (⟨S32x2048x1024, .f32⟩ : BufTy).Contents (Elt Ideal)) (wh : (⟨S16x64x1024, .f32⟩ : BufTy).Contents (Elt Ideal))
    (wp : (⟨S1024x1024, .f32⟩ : BufTy).Contents (Elt Ideal)) (B : Fin 32) (o : Fin 1024) :
    val_main_v4 (F := Ideal) x wh wp (ix2 B o) = ∑ c : Fin 1024, pooled x wh B c * wp (ix2 o c) := by
  rw [val_main_v4_apply]
  refine Finset.sum_congr rfl fun c _ => ?_
  have hl : lidx_main_v4 (ix2 B o) c = ix2 B c := by
    funext a
    match a with
    | ⟨0, _⟩ => rfl
    | ⟨1, _⟩ => rfl
  have hr : ridx_main_v4 (ix2 B o) c = ix2 c o := by
    funext a
    match a with
    | ⟨0, _⟩ => rfl
    | ⟨1, _⟩ => rfl
  rw [hl, hr, pooled_row, transposed]

/-- The reference program's result is the pooled multi-head projection. -/
theorem reference_eq (x : (⟨S32x2048x1024, .f32⟩ : BufTy).Contents (Elt Ideal)) (wh : (⟨S16x64x1024, .f32⟩ : BufTy).Contents (Elt Ideal))
    (wp : (⟨S1024x1024, .f32⟩ : BufTy).Contents (Elt Ideal)) (b : (⟨S1024, .f32⟩ : BufTy).Contents (Elt Ideal)) :
    val_main_v7 (F := Ideal) x wh wp b = Cert.PoolProj.result x wh wp b := by
  funext i
  obtain ⟨B, o, rfl⟩ : ∃ (B : Fin 32) (o : Fin 1024), i = ix2 B o := ⟨i 0, i 1, eq_ix2 i⟩
  rw [val_main_v7_apply, projected_out, bias_row]
  rfl

end Cert.PoolProj.Ref

end
-- ==== Proof.Blocks.lean ====
/-
  The four input blocks of a grid point, read at an index of the argument arrays, at the ideal instance.

  Point `t` of the 32 is batch tile `t / 16` and token tile `t % 16`. The token window's block there is the
  [16, 128, 1024] box of the token array starting at batch row `16 (t / 16)` and token `128 (t % 16)`. The other three
  windows have a constant block index, so each block is a whole array: the head weights as the host operations in
  front of the region prepared them — [16, 64, 1024] flattened to [1024, 1024] (head `h`, lane `l` at row `64 h + l`),
  transposed, and cast, the cast being the identity on extended reals —, the output weights transposed and cast, and
  the bias itself. A block's coordinate on an axis is always its block index times the block extent plus the
  coordinate inside the block.
-/
import proofs.«132895_j13082470383831_1_alg».proof.Proof.Gen.KernelIdeal.Frame
import proofs.«132895_j13082470383831_1_alg».proof.Proof.Spec
import Idealize.ShloMosaic.Lib.Pipeline.Value
import Idealize.ShloMosaic.Lib.ValueIdx
import Idealize.ShloMosaic.Lib.StableHlo.Run
import Idealize.ShloMosaic.Lib.Tactic

noncomputable section

namespace Cert.PoolProj.Blocks

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- Grid point `n` of the 32 works on batch tile `n / 16`: local row `b` there is batch row `16 · (n / 16) + b`; -/
def rowAt (n : ℕ) (hn : n < 32) (b : Fin 16) : Fin 32 := ⟨16 * (n / 16) + b.val, by have := b.isLt; omega⟩
/-- and on token tile `n % 16`. -/
def tileAt (n : ℕ) : Fin 16 := ⟨n % 16, Nat.mod_lt _ (by decide)⟩

theorem lt32 (t : Fin cfg0.N) : t.val < 32 := lt_of_lt_of_eq t.isLt N_0

/-- The token window's block index at point `t` is (t / 16, t % 16, 0), decided over the grid; the three weight
    windows never move. -/
theorem tokens_index : ∀ t : Fin cfg0.N, win0_0.index t (0 : Fin 3) = t.val / 16 ∧ win0_0.index t (1 : Fin 3) = t.val % 16 ∧ win0_0.index t (2 : Fin 3) = 0 :=
  (by decide +kernel : ∀ t : Fin grid0.N, win0_0.index t (0 : Fin 3) = t.val / 16 ∧ win0_0.index t (1 : Fin 3) = t.val % 16 ∧ win0_0.index t (2 : Fin 3) = 0)
theorem heads_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem outw_index : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem bias_index : ∀ t : Fin cfg0.N, win0_3.index t (0 : Fin 1) = 0 :=
  (by decide +kernel : ∀ t : Fin grid0.N, win0_3.index t (0 : Fin 1) = 0)

/-- The token block at point `t`, at (b, s, d), is the token array at batch row `16 (t / 16) + b`, token
    `128 (t % 16) + s`, feature `d`. -/
theorem tokens_block (c : Dev nD) (t : Fin cfg0.N) (b : Fin 16) (s : Fin 128) (d : Fin 1024) :
    (iblk m c 0 t : Vec Ideal S16x128x1024 .f32) (ix3 b s d)
      = m ((c : Thread nD τ).loc main_arg0) (ix3 (rowAt t.val (lt32 t) b) (tok (tileAt t.val) s) d) := by
  obtain ⟨h0, h1, h2⟩ := tokens_index t
  unfold iblk
  rw [View.read_apply]
  show V m c main_arg0 _ = _
  refine (congrFun (V_main_arg0 m c) _).trans ?_
  congr 1
  funext a
  apply Fin.ext
  match a with
  | ⟨0, _⟩ => show win0_0.index t 0 * 16 + 1 * b.val = 16 * (t.val / 16) + b.val; rw [h0]; omega
  | ⟨1, _⟩ => show win0_0.index t 1 * 128 + 1 * s.val = 128 * (t.val % 16) + s.val; rw [h1]; omega
  | ⟨2, _⟩ => show win0_0.index t 2 * 1024 + 1 * d.val = d.val; rw [h2]; omega

/-- The head weights as the region finds them: the [16, 64, 1024] array flattened to [1024, 1024], transposed, and
    cast (the cast is the identity on extended reals). -/
theorem heads_entry (c : Dev nD) :
    (V m c main_v2 : S1024x1024.Idx → Elt Ideal .bf16)
      = (truncf (F := Ideal) .bf16 (transpose S1024x1024 [1, 0] (shapeCast S1024x1024 (m ((c : Thread nD τ).loc main_arg1) : S16x64x1024.Idx → Elt Ideal .f32) shapeCasts_S16x64x1024_S1024x1024) transposes_S1024x1024_S1024x1024_1_0) bitsLt_bf16_f32 : S1024x1024.Idx → Elt Ideal .bf16) := by
  dsimp only [V, hostOps0]
  after_results <;> rfl

/-- The output weights as the region finds them: transposed and cast. -/
theorem outw_entry (c : Dev nD) :
    (V m c main_v4 : S1024x1024.Idx → Elt Ideal .bf16)
      = (truncf (F := Ideal) .bf16 (transpose S1024x1024 [1, 0] (m ((c : Thread nD τ).loc main_arg2) : S1024x1024.Idx → Elt Ideal .f32) transposes_S1024x1024_S1024x1024_1_0) bitsLt_bf16_f32 : S1024x1024.Idx → Elt Ideal .bf16) := by
  dsimp only [V, hostOps0]
  after_results <;> rfl

/-- The head-weight block at any point is the whole prepared array; at (d, cc) it is the head weights at head
    `cc / 64`, lane `cc % 64`, feature `d`: flattening puts (h, l) at row `64 h + l`, the transpose swaps the axes. -/
theorem heads_block (c : Dev nD) (t : Fin cfg0.N) (d : Fin 1024) (cc : Fin 1024) :
    (iblk m c 1 t : Vec Ideal S1024x1024 .bf16) (ix2 d cc)
      = m ((c : Thread nD τ).loc main_arg1) (ix3 (headOf cc) (laneOf cc) d) := by
  obtain ⟨h0, h1⟩ := heads_index t
  unfold iblk
  rw [View.read_apply]
  show V m c main_v2 _ = _
  have hemb : ((cfg0.win 1).blk t).view.emb (ix2 d cc) = ix2 d cc := by
    funext a
    apply Fin.ext
    match a with
    | ⟨0, _⟩ => show win0_1.index t 0 * 1024 + 1 * d.val = d.val; rw [h0]; omega
    | ⟨1, _⟩ => show win0_1.index t 1 * 1024 + 1 * cc.val = cc.val; rw [h1]; omega
  rw [hemb]
  refine (congrFun (heads_entry m c) (ix2 d cc)).trans ?_
  rw [truncf_apply]
  refine (transpose_apply [1, 0] _ transposes_S1024x1024_S1024x1024_1_0 (ix2 d cc) (ix2 cc d) (fun b => match b with
    | ⟨0, _⟩ => rfl
    | ⟨1, _⟩ => rfl)).trans ?_
  refine shapeCast_apply _ shapeCasts_S16x64x1024_S1024x1024 (ix2 cc d) (ix3 (headOf cc) (laneOf cc) d) ?_
  rw [Shape.rowMajor_val_three, Shape.rowMajor_val_two]
  show ((cc.val / 64) * 64 + cc.val % 64) * 1024 + d.val = cc.val * 1024 + d.val
  omega

/-- The output-weight block at (cc, o) is the output weights at (o, cc). -/
theorem outw_block (c : Dev nD) (t : Fin cfg0.N) (cc : Fin 1024) (o : Fin 1024) :
    (iblk m c 2 t : Vec Ideal S1024x1024 .bf16) (ix2 cc o)
      = m ((c : Thread nD τ).loc main_arg2) (ix2 o cc) := by
  obtain ⟨h0, h1⟩ := outw_index t
  unfold iblk
  rw [View.read_apply]
  show V m c main_v4 _ = _
  have hemb : ((cfg0.win 2).blk t).view.emb (ix2 cc o) = ix2 cc o := by
    funext a
    apply Fin.ext
    match a with
    | ⟨0, _⟩ => show win0_2.index t 0 * 1024 + 1 * cc.val = cc.val; rw [h0]; omega
    | ⟨1, _⟩ => show win0_2.index t 1 * 1024 + 1 * o.val = o.val; rw [h1]; omega
  rw [hemb]
  refine (congrFun (outw_entry m c) (ix2 cc o)).trans ?_
  rw [truncf_apply]
  exact transpose_apply [1, 0] _ transposes_S1024x1024_S1024x1024_1_0 (ix2 cc o) (ix2 o cc) (fun b => match b with
    | ⟨0, _⟩ => rfl
    | ⟨1, _⟩ => rfl)

/-- The bias block is the bias. -/
theorem bias_block (c : Dev nD) (t : Fin cfg0.N) (o : Fin 1024) :
    (iblk m c 3 t : Vec Ideal S1024 .f32) (ix1 o) = m ((c : Thread nD τ).loc main_arg3) (ix1 o) := by
  have h0 := bias_index t
  unfold iblk
  rw [View.read_apply]
  show V m c main_arg3 _ = _
  refine (congrFun (V_main_arg3 m c) _).trans ?_
  congr 1
  funext a
  apply Fin.ext
  match a with
  | ⟨0, _⟩ => show win0_3.index t 0 * 1024 + 1 * o.val = o.val; rw [h0]; omega

end Cert.PoolProj.Blocks

end
-- ==== Proof.Pieces.lean ====
/-
  What one grid point leaves behind, case by case, for any float instance.

  The kernel walks a [2, 16] grid: batch tile `bi` (16 rows of the batch) by token tile `ti` (128 tokens). It keeps a
  [16, 1024] running total in a scratch buffer that survives from point to point. Per point it does one of three
  things, decided by `ti` alone:

    * `ti = 0`  — store zeros over the whole scratch, read them back, add this tile's contribution;
    * `0 < ti < 15` — read the running total, add this tile's contribution, store it back;
    * `ti = 15` — the same update, and then store the output block: the finished total through the output
      projection plus the bias.

  Each lemma below says that the contents a case leaves — the generated frame states them as "the stores the run found,
  read back" — are the body's pure payload terms of the blocks it loaded: every store covers its whole buffer through
  the rectangle at the origin, and every load reads a whole buffer, so the stores' canonical contents are the last
  payload and a load of a just-stored buffer is that store's payload.
-/
import proofs.«132895_j13082470383831_1_alg».proof.Proof.Gen.KernelIdeal.Frame
import Idealize.ShloMosaic.Lib.Pipeline.Value
import Idealize.ShloMosaic.Lib.Tactic

set_option maxRecDepth 16384

noncomputable section

namespace Cert.PoolProj.Pieces

open Idealize.ShloMosaic Idealize.ShloMosaic.TcCoe Idealize.ShloMosaic.Tactic Idealize.SL.Sem
open Cert.KernelIdeal Cert.KernelIdeal.Gen

variable {F : FTy → Type} [FloatOps F]

theorem origin2 : (![0, 0] : Fin 2 → Nat) = fun _ => 0 := funext fun a => by fin_cases a <;> rfl

theorem origin3 : (![0, 0, 0] : Fin 3 → Nat) = fun _ => 0 := funext fun a => by fin_cases a <;> rfl
theorem origin1 : (![0] : Fin 1 → Nat) = fun _ => 0 := funext fun a => by fin_cases a; rfl

/-- At a middle token tile the body leaves in the carried scratch its one covering store: the running total it found
    there plus this tile's contribution. -/
theorem scratch_B (c : Dev nD) (i : grid0.Coords) (arg2 : Memref sig .tc .vmem S16x128x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S16x1024 .f32) (harg6 : arg6.IsWhole) (arg7 : Memref sig .tc .vmem S16x1024 .f32) (harg7 : arg7.IsWhole) (hc0 : ¬cond0_0 i) (hc1 : ¬cond0_1 i)
    (x0 : Vec F S16x128x1024 .f32) (x1 : Vec F S1024x1024 .bf16) (x2 : Vec F S1024x1024 .bf16) (x3 : Vec F S1024 .f32) (xs0 : Vec F S16x1024 .f32) :
    sout0_B_0 c i arg2 harg2 arg3 harg3 arg4 harg4 arg5 harg5 arg6 harg6 arg7 harg7 hc0 hc1 x0 x1 x2 x3 xs0 = k0_pay2 x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero origin2]
  simp only [View.readAt_eq_ld, harg2.read_unread, harg3.read_unread, harg7.read_unread,
    View.ld_unit_zero (S := S16x128x1024) origin3, View.ld_unit_zero (S := S1024x1024) origin2,
    View.ld_unit_zero (S := S16x1024) origin2]

/-- At the first token tile of a batch tile the body first stores zeros over the whole scratch, then reads them back
    and adds this tile's contribution: what the scratch held before does not enter. -/
theorem scratch_A (c : Dev nD) (i : grid0.Coords) (arg2 : Memref sig .tc .vmem S16x128x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S16x1024 .f32) (harg6 : arg6.IsWhole) (arg7 : Memref sig .tc .vmem S16x1024 .f32) (harg7 : arg7.IsWhole) (hc0 : cond0_0 i) (hc1 : ¬cond0_1 i)
    (x0 : Vec F S16x128x1024 .f32) (x1 : Vec F S1024x1024 .bf16) (x2 : Vec F S1024x1024 .bf16) (x3 : Vec F S1024 .f32) :
    sout0_A_0 c i arg2 harg2 arg3 harg3 arg4 harg4 arg5 harg5 arg6 harg6 arg7 harg7 hc0 hc1 x0 x1 x2 x3 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S16x1024) origin2, View.readCov_unit_zero (S := S16x1024) _ origin2]
  simp only [View.readAt_eq_ld, harg2.read_unread, harg3.read_unread,
    View.ld_unit_zero (S := S16x128x1024) origin3, View.ld_unit_zero (S := S1024x1024) origin2]

/-- At the last token tile the scratch is updated as at a middle tile, -/
theorem scratch_C (c : Dev nD) (i : grid0.Coords) (arg2 : Memref sig .tc .vmem S16x128x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S16x1024 .f32) (harg6 : arg6.IsWhole) (arg7 : Memref sig .tc .vmem S16x1024 .f32) (harg7 : arg7.IsWhole) (hc0 : ¬cond0_0 i) (hc1 : cond0_1 i)
    (x0 : Vec F S16x128x1024 .f32) (x1 : Vec F S1024x1024 .bf16) (x2 : Vec F S1024x1024 .bf16) (x3 : Vec F S1024 .f32) (xs0 : Vec F S16x1024 .f32) :
    sout0_C_0 c i arg2 harg2 arg3 harg3 arg4 harg4 arg5 harg5 arg6 harg6 arg7 harg7 hc0 hc1 x0 x1 x2 x3 xs0 = k0_pay2 x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero origin2]
  simp only [View.readAt_eq_ld, harg2.read_unread, harg3.read_unread, harg7.read_unread,
    View.ld_unit_zero (S := S16x128x1024) origin3, View.ld_unit_zero (S := S1024x1024) origin2,
    View.ld_unit_zero (S := S16x1024) origin2]

/-- and the output block is stored whole: the finished total, read back from the scratch, through the output
    projection plus the bias. -/
theorem out_C (c : Dev nD) (i : grid0.Coords) (arg2 : Memref sig .tc .vmem S16x128x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S16x1024 .f32) (harg6 : arg6.IsWhole) (arg7 : Memref sig .tc .vmem S16x1024 .f32) (harg7 : arg7.IsWhole) (hc0 : ¬cond0_0 i) (hc1 : cond0_1 i)
    (x0 : Vec F S16x128x1024 .f32) (x1 : Vec F S1024x1024 .bf16) (x2 : Vec F S1024x1024 .bf16) (x3 : Vec F S1024 .f32) (xs0 : Vec F S16x1024 .f32) :
    out0_C_4 c i arg2 harg2 arg3 harg3 arg4 harg4 arg5 harg5 arg6 harg6 arg7 harg7 hc0 hc1 x0 x1 x2 x3 xs0 = k0_pay3 (k0_pay2 x0 x1 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero origin2]
  simp only [View.readAt_eq_ld, harg2.read_unread, harg3.read_unread, harg4.read_unread, harg5.read_unread, harg7.read_unread,
    View.readCov_unit_zero (S := S16x1024) _ origin2,
    View.ld_unit_zero (S := S16x128x1024) origin3, View.ld_unit_zero (S := S1024x1024) origin2,
    View.ld_unit_zero (S := S16x1024) origin2, View.ld_unit_zero (S := S1024) origin1]

end Cert.PoolProj.Pieces

end
-- ==== Proof.Carried.lean ====
/-
  The running total from one grid point to the next, for any float instance.

  After the body at point `t` the carried scratch holds the accumulate payload — what it held plus this token tile's
  contribution — of the point's token block and head-weight block, taken over the zero block where the token tile
  is the first of its batch tile (`t % 16 = 0`: the scratch is reset there and what it held does not enter) and over what
  point `t - 1` left otherwise. At the last token tile (`t % 16 = 15`) the output block is the projection payload of
  that finished total, the output-weight block and the bias block.
-/
import proofs.«132895_j13082470383831_1_alg».proof.Proof.Gen.KernelIdeal.Frame
import proofs.«132895_j13082470383831_1_alg».proof.Proof.Pieces

noncomputable section

namespace Cert.PoolProj.Carried

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The four input blocks at a point, each at its literal type. -/
abbrev xblk (c : Dev nD) (t : Fin cfg0.N) : Vec F S16x128x1024 .f32 := iblk m c 0 t
abbrev wblk (c : Dev nD) (t : Fin cfg0.N) : Vec F S1024x1024 .bf16 := iblk m c 1 t
abbrev pblk (c : Dev nD) (t : Fin cfg0.N) : Vec F S1024x1024 .bf16 := iblk m c 2 t
abbrev bblk (c : Dev nD) (t : Fin cfg0.N) : Vec F S1024 .f32 := iblk m c 3 t

/-- What the carried scratch holds after point `n`. -/
abbrev carried (c : Dev nD) (n : ℕ) (h : n < cfg0.N) : Vec F S16x1024 .f32 := (outsAt0 m c n h).2

/-- At the first token tile of a batch tile: this tile's contribution over the zero block. -/
theorem carried_first (c : Dev nD) (t : Fin cfg0.N) (h0 : t.val % 16 = 0) :
    carried m c t.val t.isLt = k0_pay2 (xblk m c t) (wblk m c t) (k0_pay1 (F := F)) := by
  have hN : t.val < 32 := lt_of_lt_of_eq t.isLt N_0
  have h1 : ¬t.val % 16 = 15 := by omega
  show (outsAt0 m c t.val t.isLt).2 = _
  rw [outsAt0_A m c t h0 h1]
  dsimp only
  exact Pieces.scratch_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At any later token tile: this tile's contribution over what the point before left. -/
theorem carried_next (c : Dev nD) (t : Fin cfg0.N) (h0 : ¬t.val % 16 = 0) :
    carried m c t.val t.isLt
      = k0_pay2 (xblk m c t) (wblk m c t) (carried m c (t.val - 1) (Nat.lt_of_le_of_lt (Nat.sub_le _ _) t.isLt)) := by
  by_cases h1 : t.val % 16 = 15
  · show (outsAt0 m c t.val t.isLt).2 = _
    rw [outsAt0_C m c t h0 h1]
    dsimp only
    exact Pieces.scratch_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · show (outsAt0 m c t.val t.isLt).2 = _
    rw [outsAt0_B m c t h0 h1]
    dsimp only
    exact Pieces.scratch_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At the last token tile the output block is the finished total through the projection payload. -/
theorem output_last (c : Dev nD) (t : Fin cfg0.N) (h1 : t.val % 16 = 15) :
    (outsAt0 m c t.val t.isLt).1 = k0_pay3 (carried m c t.val t.isLt) (pblk m c t) (bblk m c t) := by
  have h0 : ¬t.val % 16 = 0 := by omega
  show _ = k0_pay3 (outsAt0 m c t.val t.isLt).2 _ _
  rw [outsAt0_C m c t h0 h1]
  dsimp only
  refine (Pieces.out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans ?_
  exact congrArg (fun a => k0_pay3 a (iblk m c 2 t) (iblk m c 3 t))
    (Pieces.scratch_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

end Cert.PoolProj.Carried

end
-- ==== Proof.Payloads.lean ====
/-
  The three values the kernel body stores, read at one index, over the extended reals.

  The body keeps a running total `acc : [16, 1024]` of projected tokens. At the first tile it stores the zero
  array; at every tile it stores `acc + Σ_t (x0[·, t, ·] · w)`, where the block `x0 : [16, 128, 1024]` is viewed as
  2048 rows of 1024, multiplied into `w : [1024, 1024]` from a zero accumulator, viewed again as 16 × 128 rows and
  summed over the 128 tokens; at the last tile it stores `a · w' + bias`, the bias row repeated over the 16 rows.
  Over the extended reals a narrowing of the float format is the identity, a matrix product into the zero array is
  the plain sum over the contracted coordinate, and a lane sum from the zero word is the plain sum over that axis.
-/
import proofs.«132895_j13082470383831_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.PoolProj.Pay

open Idealize.ShloMosaic Idealize.ShloMosaic.ValueIdx Cert.KernelIdeal Cert.KernelIdeal.Gen

/-! ## The zero array -/

/-- The value stored at the first tile is zero everywhere. -/
theorem reset_apply (j : S16x1024.Idx) : k0_pay1 (F := Ideal) j = 0 := by
  unfold k0_pay1
  rw [shapeCast_self]
  exact Ideal.ofBits_zero_f32

/-! ## The two views of the token block -/

/-- Row `b * 128 + t` of the 2048-row view. -/
def row (b : Fin 16) (t : Fin 128) : Fin 2048 := ⟨b.val * 128 + t.val, by have := b.isLt; have := t.isLt; omega⟩

/-- The block `[16, 128, 1024]` viewed as `[2048, 1024]`: row `b * 128 + t`, column `d` is element `(b, t, d)`. -/
theorem flatten_apply {α : Type} (v : S16x128x1024.Idx → α) (b : Fin 16) (t : Fin 128) (d : Fin 1024) :
    shapeCast S2048x1024 v shapeCasts_S16x128x1024_S2048x1024 (ix2 (row b t) d) = v (ix3 b t d) :=
  shapeCast_apply v _ _ _ (by
    rw [Shape.rowMajor_val_three, Shape.rowMajor_val_two]
    rfl)

/-- The product `[2048, 1024]` viewed as `[16, 128, 1024]`: element `(b, t, c)` is row `b * 128 + t`, column `c`. -/
theorem unflatten_apply {α : Type} (v : S2048x1024.Idx → α) (b : Fin 16) (t : Fin 128) (c : Fin 1024) :
    shapeCast S16x128x1024 v shapeCasts_S2048x1024_S16x128x1024 (ix3 b t c) = v (ix2 (row b t) c) :=
  shapeCast_apply v _ _ _ (by
    rw [Shape.rowMajor_val_three, Shape.rowMajor_val_two]
    rfl)

/-! ## The tile's product -/

/-- The operand coordinates of the `[2048, 1024] × [1024, 1024]` product at output index `i` and contraction index `q`:
    the left operand is read at `(i 0, q)`, the right at `(q, i 1)`. -/
theorem lhs_tile_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem lhs_tile_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem rhs_tile_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem rhs_tile_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The 2048 rows times the weights, from the zero array: at `(r, c)` the sum over `d` of `x[r, d] · w[d, c]`. -/
theorem tileProduct_apply (x : FVec Ideal S2048x1024 .bf16) (w : FVec Ideal S1024x1024 .bf16) (r : Fin 2048) (c : Fin 1024) :
    matmul dot_S2048x1024_S1024x1024_S2048x1024_1_0_0_1_n_n none x w (constant (F := Ideal) S2048x1024 .f32 0x00000000#32) (ix2 r c)
      = ∑ d : Fin 1024, x (ix2 r d) * w (ix2 d c) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r c) ((contrEquiv1 dot_S2048x1024_S1024x1024_S2048x1024_1_0_0_1_n_n 1024 rfl rfl).symm k) = ix2 r k := funext fun a => Fin.ext (by
    match a with
    | ⟨0, _⟩ => exact lhs_tile_0 _ _
    | ⟨1, _⟩ => exact (lhs_tile_1 _ _).trans hk)
  have er : dot_S2048x1024_S1024x1024_S2048x1024_1_0_0_1_n_n.rhsIdx (ix2 r c) ((contrEquiv1 dot_S2048x1024_S1024x1024_S2048x1024_1_0_0_1_n_n 1024 rfl rfl).symm k) = ix2 k c := funext fun a => Fin.ext (by
    match a with
    | ⟨0, _⟩ => exact (rhs_tile_0 _ _).trans hk
    | ⟨1, _⟩ => exact rhs_tile_1 _ _)
  rw [el, er]

/-! ## The sum over a tile's tokens -/

/-- The lane sum over axis 1 of a `[16, 128, 1024]` array from the zero word: at `(b, c)` the sum over the 128 tokens
    `t` of the array at `(b, t, c)`. -/
theorem tokenSum_apply (v : FVec Ideal S16x128x1024 .f32) (hφ : FKind.Formats .f32)
    (hacc : (0x00000000#32 : BitVec 32) = FKind.add.neutral .f32 hφ) (b : Fin 16) (c : Fin 1024) :
    multiReduction (F := Ideal) .add [1] S16x1024 v 0x00000000#32 reduces_S16x128x1024_S16x1024 hφ hacc (ix2 b c)
      = ∑ t : Fin 128, v (ix3 b t c) := by
  refine (Ideal.multiReduction_add_single v 0x00000000#32 reduces_S16x128x1024_S16x1024 hφ hacc (ix2 b c)).trans ?_
  refine Finset.sum_congr rfl fun t _ => ?_
  exact congrArg v (funext fun a => Fin.ext (by match a with | ⟨0, _⟩ => rfl | ⟨1, _⟩ => rfl | ⟨2, _⟩ => rfl))

/-! ## The value stored at every tile -/

/-- The running total plus the tile's contribution: at `(b, c)`, `acc[b, c]` plus the sum over the tile's 128 tokens
    `t` and the 1024 features `d` of `x0[b, t, d] · w[d, c]`. -/
theorem accumulate_apply (x0 : Vec Ideal S16x128x1024 .f32) (w : Vec Ideal S1024x1024 .bf16) (acc : Vec Ideal S16x1024 .f32)
    (b : Fin 16) (cc : Fin 1024) :
    k0_pay2 (F := Ideal) x0 w acc (ix2 b cc)
      = acc (ix2 b cc) + ∑ t : Fin 128, ∑ d : Fin 1024, x0 (ix3 b t d) * w (ix2 d cc) := by
  unfold k0_pay2
  simp only [shapeCast_self]
  rw [addf_apply]
  refine congrArg (acc (ix2 b cc) + ·) ?_
  refine (tokenSum_apply _ _ _ b cc).trans ?_
  refine Finset.sum_congr rfl fun t _ => ?_
  rw [unflatten_apply, tileProduct_apply]
  refine Finset.sum_congr rfl fun d _ => ?_
  rw [truncf_apply, flatten_apply]

/-! ## The output projection -/

/-- The operand coordinates of the `[16, 1024] × [1024, 1024]` product at output index `i` and contraction index `q`:
    the left operand is read at `(i 0, q)`, the right at `(q, i 1)`. -/
theorem lhs_out_0 (i : S16x1024.Idx) (q : dot_S16x1024_S1024x1024_S16x1024_1_0_0_1_n_n.contr.Idx) :
    (dot_S16x1024_S1024x1024_S16x1024_1_0_0_1_n_n.lhsIdx i q 0).val = (i 0).val := by
  unfold DotDims.lhsIdx
  rw [dif_neg (show ¬(0 : Fin S16x1024.rank) ∈ dot_S16x1024_S1024x1024_S16x1024_1_0_0_1_n_n.lhsBatch by decide), dif_pos (show (0 : Fin S16x1024.rank) ∈ dot_S16x1024_S1024x1024_S16x1024_1_0_0_1_n_n.lhsNonContracting by decide)]
  rfl
theorem lhs_out_1 (i : S16x1024.Idx) (q : dot_S16x1024_S1024x1024_S16x1024_1_0_0_1_n_n.contr.Idx) :
    (dot_S16x1024_S1024x1024_S16x1024_1_0_0_1_n_n.lhsIdx i q 1).val = (q ⟨0, by decide⟩).val :=
  dot_S16x1024_S1024x1024_S16x1024_1_0_0_1_n_n.lhsIdx_val_of_single rfl i q
theorem rhs_out_0 (i : S16x1024.Idx) (q : dot_S16x1024_S1024x1024_S16x1024_1_0_0_1_n_n.contr.Idx) :
    (dot_S16x1024_S1024x1024_S16x1024_1_0_0_1_n_n.rhsIdx i q 0).val = (q ⟨0, by decide⟩).val :=
  dot_S16x1024_S1024x1024_S16x1024_1_0_0_1_n_n.rhsIdx_val_of_single rfl i q
theorem rhs_out_1 (i : S16x1024.Idx) (q : dot_S16x1024_S1024x1024_S16x1024_1_0_0_1_n_n.contr.Idx) :
    (dot_S16x1024_S1024x1024_S16x1024_1_0_0_1_n_n.rhsIdx i q 1).val = (i 1).val := by
  unfold DotDims.rhsIdx
  rw [dif_neg (show ¬(1 : Fin S1024x1024.rank) ∈ dot_S16x1024_S1024x1024_S16x1024_1_0_0_1_n_n.rhsBatch by decide), dif_pos (show (1 : Fin S1024x1024.rank) ∈ dot_S16x1024_S1024x1024_S16x1024_1_0_0_1_n_n.rhsNonContracting by decide)]
  rfl

/-- The 16 pooled rows times the output weights, from the zero array: at `(r, c)` the sum over `d` of `x[r, d] · w[d, c]`. -/
theorem outProduct_apply (x : FVec Ideal S16x1024 .bf16) (w : FVec Ideal S1024x1024 .bf16) (r : Fin 16) (c : Fin 1024) :
    matmul dot_S16x1024_S1024x1024_S16x1024_1_0_0_1_n_n none x w (constant (F := Ideal) S16x1024 .f32 0x00000000#32) (ix2 r c)
      = ∑ d : Fin 1024, x (ix2 r d) * w (ix2 d c) := by
  simp only [matmul]
  rw [Ideal.matmul_constant_zero_apply, ← Equiv.sum_comp (contrEquiv1 dot_S16x1024_S1024x1024_S16x1024_1_0_0_1_n_n 1024 rfl rfl).symm]
  refine Finset.sum_congr rfl fun k _ => ?_
  have hk := contrEquiv1_symm_val dot_S16x1024_S1024x1024_S16x1024_1_0_0_1_n_n 1024 rfl rfl k
  have el : dot_S16x1024_S1024x1024_S16x1024_1_0_0_1_n_n.lhsIdx (ix2 r c) ((contrEquiv1 dot_S16x1024_S1024x1024_S16x1024_1_0_0_1_n_n 1024 rfl rfl).symm k) = ix2 r k := funext fun a => Fin.ext (by
    match a with
    | ⟨0, _⟩ => exact lhs_out_0 _ _
    | ⟨1, _⟩ => exact (lhs_out_1 _ _).trans hk)
  have er : dot_S16x1024_S1024x1024_S16x1024_1_0_0_1_n_n.rhsIdx (ix2 r c) ((contrEquiv1 dot_S16x1024_S1024x1024_S16x1024_1_0_0_1_n_n 1024 rfl rfl).symm k) = ix2 k c := funext fun a => Fin.ext (by
    match a with
    | ⟨0, _⟩ => exact (rhs_out_0 _ _).trans hk
    | ⟨1, _⟩ => exact rhs_out_1 _ _)
  rw [el, er]

/-- The bias `[1024]` viewed as one row `[1, 1024]` and repeated over the 16 rows: at `(b, o)` it is `bias[o]`. -/
theorem biasRows_apply {α : Type} (bias : S1024.Idx → α) (b : Fin 16) (o : Fin 1024) :
    broadcastTo S16x1024 (shapeCast S1x1024 bias shapeCasts_S1024_S1x1024) broadcasts_S1x1024_S16x1024 (ix2 b o)
      = bias (ix1 o) :=
  (broadcastTo_1b_ab_apply _ _ b o).trans (shapeCast_a_1a_apply bias _ 0 o)

/-! ## The value stored at the last tile -/

/-- The pooled rows through the output projection, plus the bias: at `(b, o)` the sum over the 1024 channels `c` of
    `a[b, c] · w[c, o]`, plus `bias[o]`. -/
theorem project_apply (a : Vec Ideal S16x1024 .f32) (w : Vec Ideal S1024x1024 .bf16) (bias : Vec Ideal S1024 .f32)
    (b : Fin 16) (o : Fin 1024) :
    k0_pay3 (F := Ideal) a w bias (ix2 b o)
      = (∑ cc : Fin 1024, a (ix2 b cc) * w (ix2 cc o)) + bias (ix1 o) := by
  unfold k0_pay3
  simp only [shapeCast_self]
  rw [addf_apply, biasRows_apply, outProduct_apply]
  refine congrArg (· + bias (ix1 o)) ?_
  refine Finset.sum_congr rfl fun c _ => ?_
  rw [truncf_apply]

end Cert.PoolProj.Pay

end
-- ==== Proof.Running.lean ====
/-
  The running total is the partial pooled sum, and the stored output block is the result.

  Fix batch row `B` and head channel `cc`, and write `f T` for token `T`'s projection onto `cc` (its inner product
  with that channel's head-weight row). After the body at grid point `t` — batch tile `t / 16`, token tile `t % 16` —
  the carried scratch at local row `b`, channel `cc` holds the sum of `f` over the token tiles `0 … t % 16` of batch row
  `16 (t / 16) + b`: at a first tile it is zero plus that tile's sum, and each later tile adds its sum onto what the
  point before left (the same batch row, since the batch tile only changes at a first tile). This is an induction
  on the point, not an enumeration of the 32 points. After the sixteenth tile the total is the sum over all 2048
  tokens, so the block stored there is the pooled row through the output projection plus the bias: the result.
  Only commutativity and associativity of the extended reals' addition are used.
-/
import proofs.«132895_j13082470383831_1_alg».proof.Proof.Gen.KernelIdeal.Frame
import proofs.«132895_j13082470383831_1_alg».proof.Proof.Spec
import proofs.«132895_j13082470383831_1_alg».proof.Proof.Blocks
import proofs.«132895_j13082470383831_1_alg».proof.Proof.Carried
import proofs.«132895_j13082470383831_1_alg».proof.Proof.Payloads
import Idealize.ShloMosaic.Lib.ValueIdx

noncomputable section

namespace Cert.PoolProj.Running

open Idealize.ShloMosaic Idealize.ShloMosaic.TcCoe Idealize.SL.Sem Idealize.ShloMosaic.ValueIdx
open Cert.KernelIdeal Cert.KernelIdeal.Gen
open Cert.PoolProj Cert.PoolProj.Blocks Cert.PoolProj.Carried

variable (m : (ℓ : Loc nD τ sig) → Buf (Elt Ideal) ℓ)

/-- Token `T`'s projection onto channel `cc`, for batch row `B`, from the argument arrays. -/
abbrev tokenProj (c : Dev nD) (B : Fin 32) (cc : Fin 1024) : Fin 2048 → EReal :=
  fun T => proj (m ((c : Thread nD τ).loc main_arg0)) (m ((c : Thread nD τ).loc main_arg1)) B T cc

/-- The running total after the tile numbered zero, and after a later tile, with the tile given as a `Fin 16`. -/
theorem upTo_first (f : Fin 2048 → EReal) (k : Fin 16) (hk : k.val = 0) : pooledUpTo f k.val = 0 + tileSum f k := by
  obtain rfl : k = 0 := Fin.ext hk
  exact pooledUpTo_zero f
theorem upTo_step (f : Fin 2048 → EReal) (k : Fin 16) (j : ℕ) (hk : k.val = j + 1) :
    pooledUpTo f k.val = pooledUpTo f j + tileSum f k := by
  have hj : j + 1 < 16 := hk ▸ k.isLt
  obtain rfl : k = ⟨j + 1, hj⟩ := Fin.ext hk
  exact pooledUpTo_succ f j hj

/-- One point's contribution at (b, cc): the point's token block against its head-weight block, summed over the
    tile's 128 tokens and the 1024 features, is the tile's sum of the tokens' projections. -/
theorem tile_contribution (c : Dev nD) (t : Fin cfg0.N) (b : Fin 16) (cc : Fin 1024) :
    (∑ s : Fin 128, ∑ d : Fin 1024, xblk m c t (ix3 b s d) * wblk m c t (ix2 d cc))
      = tileSum (tokenProj m c (rowAt t.val (lt32 t) b) cc) (tileAt t.val) := by
  unfold tileSum
  refine Finset.sum_congr rfl fun s _ => ?_
  show _ = proj _ _ _ _ _
  unfold proj
  refine Finset.sum_congr rfl fun d _ => ?_
  exact congrArg₂ (· * ·) (tokens_block m c t b s d) (heads_block m c t d cc)

/-- The step of the induction, at a point `t`, given the claim at `t - 1` when `t` is not a first tile. -/
theorem running_step (c : Dev nD) (t : Fin cfg0.N)
    (IH : ¬t.val % 16 = 0 → ∀ (b : Fin 16) (cc : Fin 1024),
      carried m c (t.val - 1) (Nat.lt_of_le_of_lt (Nat.sub_le _ _) t.isLt) (ix2 b cc)
        = pooledUpTo (tokenProj m c (rowAt (t.val - 1) (lt_of_le_of_lt (Nat.sub_le _ _) (lt32 t)) b) cc) ((t.val - 1) % 16))
    (b : Fin 16) (cc : Fin 1024) :
    carried m c t.val t.isLt (ix2 b cc) = pooledUpTo (tokenProj m c (rowAt t.val (lt32 t) b) cc) (t.val % 16) := by
  have hN := lt32 t
  by_cases h0 : t.val % 16 = 0
  · refine (congrFun (carried_first m c t h0) (ix2 b cc)).trans ?_
    rw [Pay.accumulate_apply, Pay.reset_apply, tile_contribution]
    exact (upTo_first _ (tileAt t.val) h0).symm
  · refine (congrFun (carried_next m c t h0) (ix2 b cc)).trans ?_
    rw [Pay.accumulate_apply, tile_contribution, IH h0 b cc]
    have hrow : rowAt (t.val - 1) (lt_of_le_of_lt (Nat.sub_le _ _) (lt32 t)) b = rowAt t.val (lt32 t) b :=
      Fin.ext (by show 16 * ((t.val - 1) / 16) + b.val = 16 * (t.val / 16) + b.val; omega)
    rw [hrow]
    exact (upTo_step _ (tileAt t.val) ((t.val - 1) % 16) (by show t.val % 16 = (t.val - 1) % 16 + 1; omega)).symm

/-- THE INVARIANT: after point `n` the carried scratch at (b, cc) is the partial pooled sum over the token tiles
    `0 … n % 16` of batch row `16 (n / 16) + b`. -/
theorem running (c : Dev nD) : ∀ (n : ℕ) (h : n < cfg0.N) (b : Fin 16) (cc : Fin 1024),
    carried m c n h (ix2 b cc) = pooledUpTo (tokenProj m c (rowAt n (lt_of_lt_of_eq h N_0) b) cc) (n % 16)
  | 0, h => running_step m c ⟨0, h⟩ (fun h0 => absurd rfl h0)
  | n + 1, h => running_step m c ⟨n + 1, h⟩ (fun _ => running c n (Nat.lt_of_succ_lt h))

/-- The output block stored at the last token tile of a batch tile is, at (b, o), the result at batch row
    `16 (t / 16) + b` and output feature `o`. -/
theorem output_block (c : Dev nD) (t : Fin cfg0.N) (h1 : t.val % 16 = 15) (b : Fin 16) (o : Fin 1024) :
    (outsAt0 m c t.val t.isLt).1 (ix2 b o)
      = Cert.PoolProj.result (m ((c : Thread nD τ).loc main_arg0)) (m ((c : Thread nD τ).loc main_arg1))
          (m ((c : Thread nD τ).loc main_arg2)) (m ((c : Thread nD τ).loc main_arg3)) (ix2 (rowAt t.val (lt32 t) b) o) := by
  refine (congrFun (output_last m c t h1) (ix2 b o)).trans ?_
  rw [Pay.project_apply]
  show _ = (∑ cc : Fin 1024, pooled _ _ (rowAt t.val (lt32 t) b) cc * _) + _
  refine congrArg₂ (· + ·) (Finset.sum_congr rfl fun cc _ => ?_) (bias_block m c t o)
  refine congrArg₂ (· * ·) ?_ (outw_block m c t cc o)
  refine (running m c t.val t.isLt b cc).trans ?_
  rw [h1]
  exact pooledUpTo_last _

end Cert.PoolProj.Running

end
-- ==== Proof.Final.lean ====
/-
  The output array after the run is the result, as one function of the four argument arrays.

  The output window's block index is (t / 16, 0) and it is written back exactly at the points `t ≡ 15 (mod 16)`: the
  last token tile of each batch tile. What is written back there is the stored output block, which at (b, o) is the
  result at batch row `16 (t / 16) + b` — and that is where the block sits in the [32, 1024] array, so the write-back
  is the block of the result read through the window. Every batch row `r` lies in the block of the point
  `16 (r / 16) + 15`, so the two write-backs cover the array, and the array ends holding the result.
-/
import proofs.«132895_j13082470383831_1_alg».proof.Proof.Gen.KernelIdeal.Value
import proofs.«132895_j13082470383831_1_alg».proof.Proof.Spec
import proofs.«132895_j13082470383831_1_alg».proof.Proof.Blocks
import proofs.«132895_j13082470383831_1_alg».proof.Proof.Running
import Idealize.ShloMosaic.Lib.Pipeline.Value
import Idealize.ShloMosaic.Lib.ValueIdx

noncomputable section

namespace Cert.PoolProj.Final

open Idealize.ShloMosaic Idealize.ShloMosaic.TcCoe Idealize.SL.Sem Idealize.ShloMosaic.ValueIdx
open Idealize.ShloMosaic.Pipeline (Dat)
open Cert.KernelIdeal Cert.KernelIdeal.Gen
open Cert.PoolProj Cert.PoolProj.Blocks

variable (m : (ℓ : Loc nD τ sig) → Buf (Elt Ideal) ℓ) (ρ : Dev nD → PrngReg)

/-- The result of the argument arrays as launched, as contents of the output array. -/
abbrev resultArr (c : Dev nD) : Buf (Elt Ideal) ((c : Thread nD τ).loc main_v5) :=
  Cert.PoolProj.result (m ((c : Thread nD τ).loc main_arg0)) (m ((c : Thread nD τ).loc main_arg1))
    (m ((c : Thread nD τ).loc main_arg2)) (m ((c : Thread nD τ).loc main_arg3))

/-- The output window's block index at point `t` is (t / 16, 0), decided over the grid. -/
theorem out_index : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- What a flushing point writes back is its block of the result. -/
theorem flushed_eq (c : Dev nD) (t : Fin cfg0.N) (hf : (cfg0.win 4).flush t = true) :
    (dats m 0 c).flushed 4 t = ((cfg0.win 4).blk t).view.read (Elt Ideal) (resultArr m c) := by
  have h1 : t.val % 16 = 15 := (flush0_4 t).mp hf
  obtain ⟨e0, e1⟩ := out_index t
  rw [Cert.KernelIdeal.Value.flushed4]
  funext j
  show (outsAt0 m c t.val t.isLt).1 j = resultArr m c (((cfg0.win 4).blk t).view.emb j)
  obtain ⟨b, o, rfl⟩ : ∃ (b : Fin 16) (o : Fin 1024), j = ix2 b o := ⟨j 0, j 1, eq_ix2 j⟩
  rw [Running.output_block m c t h1 b o]
  refine congrArg (resultArr m c) ?_
  funext a
  apply Fin.ext
  match a with
  | ⟨0, _⟩ => show 16 * (t.val / 16) + b.val = win0_4.index t (0 : Fin 2) * 16 + 1 * b.val; rw [e0]; omega
  | ⟨1, _⟩ => show o.val = win0_4.index t (1 : Fin 2) * 1024 + 1 * o.val; rw [e1]; omega

/-- An index of the array is in point `t`'s block iff each coordinate is in the block's range on its axis. -/
theorem mem_blk (t : Fin cfg0.N) (i : S32x1024.Idx) :
    i ∈ ((cfg0.win 4).blk t).view.set ↔ ∀ a : Fin 2, win0_4.index t a * S16x1024.size a ≤ (i a).val ∧ (i a).val < win0_4.index t a * S16x1024.size a + S16x1024.size a := by
  show i ∈ ((View.whole main_v5).slice (win0_4.rect t)).set ↔ _
  rw [View.set_slice_whole, Rect.mem_set_unit]
  exact Iff.rfl

/-- Batch row `r` is written back by the last token tile of batch tile `r / 16`. -/
theorem cover (i : S32x1024.Idx) :
    ∃ t : Fin cfg0.N, (cfg0.win 4).flush t = true ∧ i ∈ ((cfg0.win 4).blk t).view.set := by
  have hi0 : (i 0).val < 32 := (i 0).isLt
  have hi1 : (i 1).val < 1024 := (i 1).isLt
  have hN : cfg0.N = 32 := N_0
  have hlt : 16 * ((i 0).val / 16) + 15 < cfg0.N := by rw [hN]; omega
  obtain ⟨e0, e1⟩ := out_index ⟨16 * ((i 0).val / 16) + 15, hlt⟩
  refine ⟨⟨16 * ((i 0).val / 16) + 15, hlt⟩, (flush0_4 _).mpr (by show (16 * ((i 0).val / 16) + 15) % 16 = 15; omega), ?_⟩
  rw [mem_blk]
  intro a
  match a with
  | ⟨0, _⟩ =>
    show win0_4.index ⟨16 * ((i 0).val / 16) + 15, hlt⟩ (0 : Fin 2) * 16 ≤ (i 0).val ∧ (i 0).val < win0_4.index ⟨16 * ((i 0).val / 16) + 15, hlt⟩ (0 : Fin 2) * 16 + 16
    rw [e0]
    show (16 * ((i 0).val / 16) + 15) / 16 * 16 ≤ (i 0).val ∧ (i 0).val < (16 * ((i 0).val / 16) + 15) / 16 * 16 + 16
    omega
  | ⟨1, _⟩ =>
    show win0_4.index ⟨16 * ((i 0).val / 16) + 15, hlt⟩ (1 : Fin 2) * 1024 ≤ (i 1).val ∧ (i 1).val < win0_4.index ⟨16 * ((i 0).val / 16) + 15, hlt⟩ (1 : Fin 2) * 1024 + 1024
    rw [e1]
    omega

/-- THE ARRAY after the run is the result. -/
theorem final (c : Dev nD) : (dats m 0 c).arrAt 4 cfg0.N = resultArr m c :=
  (dats m 0 c).arrAt_eq_of_cover 4 (resultArr m c) (fun t hf => flushed_eq m c t hf) (fun i => cover i)

/-- The kernel's run, read: the output array at the result of the argument arrays, the arguments unchanged. -/
theorem run : θ_run defs (onTc (τ := τ) (main (F := Ideal))) ⟨m, fun _ => 0, ρ⟩ fun r => ∀ c : Dev nD,
      r.2.mem ((c : Thread nD τ).loc main_v5) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.PoolProj.Final

end
-- ==== Proof.lean ====
/-
  A pooled multi-head projection, computed tile by tile, against its one-shot reference.

  Inputs: tokens `x : [32, 2048, 1024]`, head weights `wh : [16, 64, 1024]`, output weights `wp : [1024, 1024]`, a bias
  `b : [1024]`. Both programs compute, at batch row `B` and output feature `o`,

      (∑ c, (∑ T, ∑ d, x[B, T, d] · wh[c / 64, c % 64, d]) · wp[o, c]) + b[o].

  The reference does it in one pass: a product over `d` into [32, 2048, 16, 64], the two head axes flattened, a sum
  over the 2048 tokens from zero, a product with the transposed output weights, the bias added. The kernel walks a
  [2, 16] grid of 16 batch rows by 128 tokens: at each point it multiplies the token block into the flattened,
  transposed head weights, sums the 128 tokens, and adds that onto a running total it keeps from point to point
  (reset to zero at the first token tile of a batch tile); at the last token tile it multiplies the total into the
  transposed output weights, adds the bias and stores the output block. Over the extended reals a change of float
  format is the identity and a matrix product into zeros is a plain sum, so the two differ only in how the sum over
  the 2048 tokens is grouped — sixteen groups of 128 added in order onto zero — and addition of extended reals is
  commutative and associative. The precondition (finite inputs) is never opened.

  The modules: Spec (the formula and the regrouping law), RefRead (the reference is the formula), Payloads (the
  kernel body's three stored values as sums), Pieces and Carried (what each grid point leaves in the running total
  and in the output block), Blocks (the input blocks as entries of the argument arrays), Running (the running total is
  the partial sum, by induction on the point), Final (the output array ends holding the formula). The kernel's
  idealization rewrote nothing, so `preserves` is trivial.
-/
import proofs.«132895_j13082470383831_1_alg».proof.Defs
import proofs.«132895_j13082470383831_1_alg».proof.Proof.Gen.Kernel
import proofs.«132895_j13082470383831_1_alg».proof.Proof.Gen.Kernel.Skeleton
import proofs.«132895_j13082470383831_1_alg».proof.Proof.Gen.Kernel.Launch
import proofs.«132895_j13082470383831_1_alg».proof.Proof.Gen.Kernel.Points
import proofs.«132895_j13082470383831_1_alg».proof.Proof.Gen.Kernel.Frame
import proofs.«132895_j13082470383831_1_alg».proof.Proof.Gen.KernelIdeal
import proofs.«132895_j13082470383831_1_alg».proof.Proof.Gen.KernelIdeal.Skeleton
import proofs.«132895_j13082470383831_1_alg».proof.Proof.Gen.KernelIdeal.Launch
import proofs.«132895_j13082470383831_1_alg».proof.Proof.Gen.KernelIdeal.Points
import proofs.«132895_j13082470383831_1_alg».proof.Proof.Gen.KernelIdeal.Frame
import proofs.«132895_j13082470383831_1_alg».proof.Proof.Gen.ReferenceIdeal
import proofs.«132895_j13082470383831_1_alg».proof.Proof.Gen.ReferenceIdeal.Run
import proofs.«132895_j13082470383831_1_alg».proof.Proof.Gen.ReferenceIdeal.Read
import proofs.«132895_j13082470383831_1_alg».proof.Proof.Gen.Pre_finite_inputs
import proofs.«132895_j13082470383831_1_alg».proof.Proof.RefRead
import proofs.«132895_j13082470383831_1_alg».proof.Proof.Final
import Idealize.ShloMosaic.Adequacy
import Idealize.ShloMosaic.Init

noncomputable section

namespace Cert.Proof

open Idealize.ShloMosaic Idealize.ShloMosaic.TcCoe Idealize.SL.Sem

/-- The word-level kernel and its idealization run to the end and leave their arguments alone. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, the kernel's output array ends at the formula of its
    arguments and the reference's result at the formula of its own: the same extended reals, index by index. -/
theorem algebraic : Cert.algebraic_KernelIdeal_ReferenceIdeal := by
  intro m ρ m' ρ' _ hagree
  refine ⟨fun c => Cert.PoolProj.Final.resultArr m c, Cert.PoolProj.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.PoolProj.Ref.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
